-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S4x2048x2048 .f32) (main_arg1 : FVec F S8192x2048 .f32) (main_arg2 : FVec F S8192x2048 .f32) (main_arg3 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 77
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | .hbm, ⟨27, _⟩ => ⟨S8192x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | .hbm, ⟨50, _⟩ => ⟨S2048x8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2048x8192, .f32⟩
  | .hbm, ⟨58, _⟩ => ⟨S2048x8192, .f32⟩
  | .hbm, ⟨59, _⟩ => ⟨S2048x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048x8192, .f32⟩
  | .hbm, ⟨64, _⟩ => ⟨S2048x8192, .f32⟩
  | .hbm, ⟨65, _⟩ => ⟨S_, .f32⟩
  | .hbm, ⟨66, _⟩ => ⟨S2048x8192, .f32⟩
  | .hbm, ⟨67, _⟩ => ⟨S2048x8192, .f32⟩
  | .hbm, ⟨68, _⟩ => ⟨S2048x8192, .f32⟩
  | .hbm, ⟨69, _⟩ => ⟨S2048x8192, .f32⟩
  | .hbm, ⟨70, _⟩ => ⟨S2048x8192, .f32⟩
  | .hbm, ⟨71, _⟩ => ⟨S2048x8192, .f32⟩
  | .hbm, ⟨72, _⟩ => ⟨S2048x8192, .bf16⟩
  | .hbm, ⟨73, _⟩ => ⟨S8192x2048, .f32⟩
  | .hbm, ⟨74, _⟩ => ⟨S8192x2048, .bf16⟩
  | .hbm, ⟨75, _⟩ => ⟨S8192x2048, .f32⟩
  | .hbm, ⟨76, _⟩ => ⟨S4x2048x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_9 : Ref sig .tc := ⟨.hbm, 51, rfl⟩
abbrev main_v27 : Ref sig .tc := ⟨.hbm, 52, rfl⟩
abbrev main_cst_10 : Ref sig .tc := ⟨.hbm, 53, rfl⟩
abbrev main_v28 : Ref sig .tc := ⟨.hbm, 54, rfl⟩
abbrev main_cst_11 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_12 : Ref sig .tc := ⟨.hbm, 60, rfl⟩
abbrev main_cst_13 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x2048_S_d0_1 : S8192x2048.ReducesTo [0, 1] S_
  h_S_ : 0 < S_.numel
  bcast_S_S8192x2048 : S_.BroadcastsInDim S8192x2048 (![] : Fin 0 → Fin S8192x2048.rank)
  bitsLt_bf16_f32 : FTy.bits .bf16 < FTy.bits .f32
  reducesTo_S2048x8192_S_d0_1 : S2048x8192.ReducesTo [0, 1] S_
  bcast_S_S2048x8192 : S_.BroadcastsInDim S2048x8192 (![] : Fin 0 → Fin S2048x8192.rank)
  shapeCasts_S4x2048x2048_S8192x2048 : S4x2048x2048.ShapeCasts S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S8192x2048_S4x2048x2048 : S8192x2048.ShapeCasts S4x2048x2048
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v40) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩
abbrev S4x2048x8192 : Shape := ⟨3, ![4, 2048, 8192]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S2048x8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2048x8192, .f32⟩
  | .hbm, ⟨56, _⟩ => ⟨S2048x8192, .f32⟩
  | .hbm, ⟨57, _⟩ => ⟨S2048x8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S2048x8192, .f32⟩
  | .hbm, ⟨62, _⟩ => ⟨S2048x8192, .f32⟩
  | .hbm, ⟨63, _⟩ => ⟨S_, .f32⟩
  | .hbm, ⟨64, _⟩ => ⟨S2048x8192, .f32⟩
  | .hbm, ⟨65, _⟩ => ⟨S2048x8192, .f32⟩
  | .hbm, ⟨66, _⟩ => ⟨S2048x8192, .f32⟩
  | .hbm, ⟨67, _⟩ => ⟨S2048x8192, .f32⟩
  | .hbm, ⟨68, _⟩ => ⟨S2048x8192, .f32⟩
  | .hbm, ⟨69, _⟩ => ⟨S2048x8192, .f32⟩
  | .hbm, ⟨70, _⟩ => ⟨S4x2048x8192, .f32⟩
  | .hbm, ⟨71, _⟩ => ⟨S4x2048x8192, .f32⟩
  | .hbm, ⟨72, _⟩ => ⟨S4x2048x8192, .f32⟩
  | .hbm, ⟨73, _⟩ => ⟨S4x2048x8192, .f32⟩
  | .hbm, ⟨74, _⟩ => ⟨S_, .f32⟩
  | .hbm, ⟨75, _⟩ => ⟨S4x2048x8192, .f32⟩
  | .hbm, ⟨76, _⟩ => ⟨S4x2048x8192, .f32⟩
  | .hbm, ⟨77, _⟩ => ⟨S_, .f32⟩
  | .hbm, ⟨78, _⟩ => ⟨S4x2048x8192, .f32⟩
  | .hbm, ⟨79, _⟩ => ⟨S4x2048x8192, .f32⟩
  | .hbm, ⟨80, _⟩ => ⟨S4x2048x8192, .f32⟩
  | .hbm, ⟨81, _⟩ => ⟨S4x2048x8192, .f32⟩
  | .hbm, ⟨82, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_cst_10 : Ref sig .tc := ⟨.hbm, 51, rfl⟩
abbrev main_v26 : Ref sig .tc := ⟨.hbm, 52, rfl⟩
abbrev main_cst_11 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_12 : Ref sig .tc := ⟨.hbm, 58, rfl⟩
abbrev main_cst_13 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_call6_v0 : Ref sig .tc := ⟨.hbm, 72, rfl⟩
abbrev main_call6_v1 : Ref sig .tc := ⟨.hbm, 73, rfl⟩
abbrev main_call6_cst : Ref sig .tc := ⟨.hbm, 74, rfl⟩
abbrev main_call6_v2 : Ref sig .tc := ⟨.hbm, 75, rfl⟩
abbrev main_call6_v3 : Ref sig .tc := ⟨.hbm, 76, rfl⟩
abbrev main_call6_cst_0 : Ref sig .tc := ⟨.hbm, 77, rfl⟩
abbrev main_call6_v4 : Ref sig .tc := ⟨.hbm, 78, rfl⟩
abbrev main_call6_v5 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩

abbrev nD : Nat := 1
abbrev τ : Topo := Topo.v7x

variable {F : FTy → Type} [FloatOps F]

class Facts₀ : Prop where
  reducesTo_S8192x2048_S_d0_1 : S8192x2048.ReducesTo [0, 1] S_
  h_S_ : 0 < S_.numel
  bcast_S_S8192x2048 : S_.BroadcastsInDim S8192x2048 (![] : Fin 0 → Fin S8192x2048.rank)
  reducesTo_S2048x8192_S_d0_1 : S2048x8192.ReducesTo [0, 1] S_
  bcast_S_S2048x8192 : S_.BroadcastsInDim S2048x8192 (![] : Fin 0 → Fin S2048x8192.rank)
  bcast_S_S4x2048x8192 : S_.BroadcastsInDim S4x2048x8192 (![] : Fin 0 → Fin S4x2048x8192.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.Pieces.lean ====
/-
  What one step of the kernel body leaves behind, case by case, as VALUES.

  The body keeps a running total in a scratch block of 512 × 2048. At a step it loads its four input blocks
  (activations `x0`, up weights `x1`, gate weights `x2`, down weights `x3`), and
   * at the first step over the hidden axis it stores the zero block, reads it back and stores zero-plus-this-step's
     contribution;
   * at every later step it stores the previous total plus this step's contribution;
   * at the last step it also copies the new total into the output block.
  "This step's contribution added to a total `a`" is the body's one arithmetic term `k0_pay2 x0 x1 x2 x3 a`, and the
  zero block is `k0_pay1`. The lemmas below say exactly that, for every float instance: each case's stores cover the
  whole block from its corner, so the block ends at the last stored value, and a load after a covering store reads
  that value back.
-/
import proofs.«161961_j81862076662210_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- A block read from its corner: the offsets `(0, 0)` are the zero offsets. -/
theorem corner : (![0, 0] : Fin 2 → Nat) = fun _ => 0 := funext fun a => by fin_cases a <;> rfl

/-- A later step that is not the last: the scratch ends at the previous total `a` plus this step's contribution. -/
theorem scratch_mid (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 x1 x2 : Vec F S512x2048 .bf16) (x3 : Vec F S2048x512 .bf16) (a : Vec F S512x2048 .f32) :
    sout0_B_0 c i arg2 harg2 arg3 harg3 arg4 harg4 arg5 harg5 arg6 harg6 arg7 harg7 hc0 hc1 x0 x1 x2 x3 a = k0_pay2 x0 x1 x2 x3 a := by
  unfold sout0_B_0
  rw [View.read_writes_eq_canon _ _ _ (scover0_B_0 c i arg2 harg2 arg3 harg3 arg4 harg4 arg5 harg5 arg6 harg6 arg7 harg7 hc0 hc1 x0 x1 x2 x3 a)]
  unfold kernelRun0_B
  dsimp only
  sl_unfold_words
  rw [View.canon_unit_zero corner]
  simp only [View.readAt_eq_ld, harg2.read_unread, harg3.read_unread, harg4.read_unread, harg5.read_unread, harg6.read_unread, harg7.read_unread,
    View.ld_unit_zero (S := S512x2048) corner, View.ld_unit_zero (S := S2048x512) corner, View.readCov_unit_zero (S := S512x2048) _ corner]

/-- The last step: the scratch ends at the previous total `a` plus this step's contribution, -/
theorem scratch_last (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 x1 x2 : Vec F S512x2048 .bf16) (x3 : Vec F S2048x512 .bf16) (a : Vec F S512x2048 .f32) :
    sout0_C_0 c i arg2 harg2 arg3 harg3 arg4 harg4 arg5 harg5 arg6 harg6 arg7 harg7 hc0 hc1 x0 x1 x2 x3 a = k0_pay2 x0 x1 x2 x3 a := by
  unfold sout0_C_0
  rw [View.read_writes_eq_canon _ _ _ (scover0_C_0 c i arg2 harg2 arg3 harg3 arg4 harg4 arg5 harg5 arg6 harg6 arg7 harg7 hc0 hc1 x0 x1 x2 x3 a)]
  unfold kernelRun0_C
  dsimp only
  sl_unfold_words
  rw [View.canon_unit_zero corner]
  simp only [View.readAt_eq_ld, harg2.read_unread, harg3.read_unread, harg4.read_unread, harg5.read_unread, harg6.read_unread, harg7.read_unread,
    View.ld_unit_zero (S := S512x2048) corner, View.ld_unit_zero (S := S2048x512) corner, View.readCov_unit_zero (S := S512x2048) _ corner]

/-- and the output block is a copy of that new total. -/
theorem out_last (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 x1 x2 : Vec F S512x2048 .bf16) (x3 : Vec F S2048x512 .bf16) (a : Vec F S512x2048 .f32) :
    out0_C_4 c i arg2 harg2 arg3 harg3 arg4 harg4 arg5 harg5 arg6 harg6 arg7 harg7 hc0 hc1 x0 x1 x2 x3 a = k0_pay2 x0 x1 x2 x3 a := by
  unfold out0_C_4
  rw [View.read_writes_eq_canon _ _ _ (cover0_C_4 c i arg2 harg2 arg3 harg3 arg4 harg4 arg5 harg5 arg6 harg6 arg7 harg7 hc0 hc1 x0 x1 x2 x3 a)]
  unfold kernelRun0_C
  dsimp only
  sl_unfold_words
  rw [View.canon_unit_zero corner]
  simp only [View.readAt_eq_ld, harg2.read_unread, harg3.read_unread, harg4.read_unread, harg5.read_unread, harg6.read_unread, harg7.read_unread,
    View.ld_unit_zero (S := S512x2048) corner, View.ld_unit_zero (S := S2048x512) corner, View.readCov_unit_zero (S := S512x2048) _ corner]

/-- The first step over the hidden axis: the scratch is reset to the zero block, read back, and ends at zero plus this
    step's contribution. -/
theorem scratch_first (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 x1 x2 : Vec F S512x2048 .bf16) (x3 : Vec F S2048x512 .bf16) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) corner, View.readCov_unit_zero (S := S512x2048) _ corner]
  simp only [View.readAt_eq_ld, harg2.read_unread, harg3.read_unread, harg4.read_unread, harg5.read_unread, harg6.read_unread, harg7.read_unread,
    View.ld_unit_zero (S := S512x2048) corner, View.ld_unit_zero (S := S2048x512) corner, View.readCov_unit_zero (S := S512x2048) _ corner]

end Cert.KernelIdeal.Pieces

end
-- ==== Proof.Blocks.lean ====
/-
  Where the blocks sit. The grid has 16 × 16 points; point `t` works on row block `t / 16` of the activations and of
  the result (512 rows each) and on tile `t % 16` of the hidden axis (512 hidden units each): rows `512 (t % 16) …` of
  the up and gate weights, columns `512 (t % 16) …` of the down weights. The index maps are decided once over the
  256 points; each input block, read at an entry, is then the array at the entry's place in that slice.
-/
import proofs.«161961_j81862076662210_1_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The five index maps at point `t`: row block `t / 16` for the activations and the result, tile `t % 16` for the weights. -/
theorem index_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-- The arrays the region finds, at their literal types. -/
abbrev acts (c : Dev nD) : Vec F S8192x2048 .bf16 := V m c main_v40
abbrev upW (c : Dev nD) : Vec F S8192x2048 .bf16 := V m c main_v12
abbrev gateW (c : Dev nD) : Vec F S8192x2048 .bf16 := V m c main_v25
abbrev downW (c : Dev nD) : Vec F S2048x8192 .bf16 := V m c main_v38

/-- The four input blocks at point `t`, at their literal types. -/
abbrev actsBlk (c : Dev nD) (t : Fin cfg0.N) : Vec F S512x2048 .bf16 := iblk m c 0 t
abbrev upBlk (c : Dev nD) (t : Fin cfg0.N) : Vec F S512x2048 .bf16 := iblk m c 1 t
abbrev gateBlk (c : Dev nD) (t : Fin cfg0.N) : Vec F S512x2048 .bf16 := iblk m c 2 t
abbrev downBlk (c : Dev nD) (t : Fin cfg0.N) : Vec F S2048x512 .bf16 := iblk m c 3 t

/-- The activations' block at point `t`: rows `512 (t / 16) + r`. -/
theorem acts_block (c : Dev nD) (t : Fin cfg0.N) (r : Fin 512) (i : Fin 2048) (R : Fin 8192) (hR : R.val = 512 * (t.val / 16) + r.val) :
    actsBlk m c t (ix2 r i) = acts m c (ix2 R i) := by
  obtain ⟨e0, e1, -⟩ := index_facts t
  show V m c main_v40 (((cfg0.win 0).blk t).view.emb (ix2 r i)) = V m c main_v40 (ix2 R i)
  refine congrArg (V m c main_v40) (funext fun a => Fin.ext ?_)
  match a with
  | ⟨0, _⟩ => show win0_0.index t (0 : Fin 2) * 512 + 1 * r.val = R.val; omega
  | ⟨1, _⟩ => show win0_0.index t (1 : Fin 2) * 2048 + 1 * i.val = i.val; omega

/-- The up weights' block at point `t`: rows `512 (t % 16) + k`. -/
theorem up_block (c : Dev nD) (t : Fin cfg0.N) (k : Fin 512) (i : Fin 2048) (j : Fin 8192) (hj : j.val = 512 * (t.val % 16) + k.val) :
    upBlk m c t (ix2 k i) = upW m c (ix2 j i) := by
  obtain ⟨-, -, e0, e1, -⟩ := index_facts t
  show V m c main_v12 (((cfg0.win 1).blk t).view.emb (ix2 k i)) = V m c main_v12 (ix2 j i)
  refine congrArg (V m c main_v12) (funext fun a => Fin.ext ?_)
  match a with
  | ⟨0, _⟩ => show win0_1.index t (0 : Fin 2) * 512 + 1 * k.val = j.val; omega
  | ⟨1, _⟩ => show win0_1.index t (1 : Fin 2) * 2048 + 1 * i.val = i.val; omega

/-- The gate weights' block at point `t`: rows `512 (t % 16) + k`. -/
theorem gate_block (c : Dev nD) (t : Fin cfg0.N) (k : Fin 512) (i : Fin 2048) (j : Fin 8192) (hj : j.val = 512 * (t.val % 16) + k.val) :
    gateBlk m c t (ix2 k i) = gateW m c (ix2 j i) := by
  obtain ⟨-, -, -, -, e0, e1, -⟩ := index_facts t
  show V m c main_v25 (((cfg0.win 2).blk t).view.emb (ix2 k i)) = V m c main_v25 (ix2 j i)
  refine congrArg (V m c main_v25) (funext fun a => Fin.ext ?_)
  match a with
  | ⟨0, _⟩ => show win0_2.index t (0 : Fin 2) * 512 + 1 * k.val = j.val; omega
  | ⟨1, _⟩ => show win0_2.index t (1 : Fin 2) * 2048 + 1 * i.val = i.val; omega

/-- The down weights' block at point `t`: columns `512 (t % 16) + k`. -/
theorem down_block (c : Dev nD) (t : Fin cfg0.N) (d : Fin 2048) (k : Fin 512) (j : Fin 8192) (hj : j.val = 512 * (t.val % 16) + k.val) :
    downBlk m c t (ix2 d k) = downW m c (ix2 d j) := by
  obtain ⟨-, -, -, -, -, -, e0, e1, -⟩ := index_facts t
  show V m c main_v38 (((cfg0.win 3).blk t).view.emb (ix2 d k)) = V m c main_v38 (ix2 d j)
  refine congrArg (V m c main_v38) (funext fun a => Fin.ext ?_)
  match a with
  | ⟨0, _⟩ => show win0_3.index t (0 : Fin 2) * 2048 + 1 * d.val = d.val; omega
  | ⟨1, _⟩ => show win0_3.index t (1 : Fin 2) * 512 + 1 * k.val = j.val; omega

end Cert.KernelIdeal.Blocks

end
-- ==== Proof.Spec.lean ====
/-
  The gated feed-forward block over the extended reals, with no program in sight.

  A row `R` of the activations `X` (8192 rows of 2048) is projected onto each of the 8192 hidden units `j` twice,
  by the "up" weights and by the "gate" weights: `proj X W R j = ∑ i, X (R, i) · W (j, i)`. The unit's value is
  `silu (up) · gate` with `silu u = u · logistic u`, and the block's result at `(R, d)` is the hidden units'
  values carried down by `WD`: `∑ j, unit R j · WD (d, j)`.

  Two facts about this function are proved here and used by the two programs' value proofs:
   * `logistic` spelled out, `1 / (1 + e^(-u))` over the literal words of `1.0`, is `Ideal.logistic`;
   * a sum over the 8192 hidden units is the sum, over 16 tiles of 512, of the tiles' sums (a re-grouping in a
     commutative monoid: no finiteness is needed).
-/
import Idealize.ShloMosaic.PureOps.Ideal
import Idealize.ShloMosaic.PureOps.Ideal.Laws
import Idealize.ShloMosaic.PureOps.IdealRules
import Idealize.ShloMosaic.Lib.ValueIdx
import Mathlib.Algebra.BigOperators.Fin
import Mathlib.Algebra.BigOperators.Intervals

noncomputable section

open scoped BigOperators

namespace Cert.Swiglu

open Idealize.ShloMosaic Idealize.ShloMosaic.ValueIdx

/-- Activations and the up / gate weights: 8192 rows of 2048. -/
abbrev SRows : Shape := ⟨2, ![8192, 2048]⟩
/-- The down weights: 2048 rows of 8192. -/
abbrev SDown : Shape := ⟨2, ![2048, 8192]⟩

/-- One hidden unit from its two projections: `silu up · gate`, `silu u = u · logistic u`. -/
def hidden (up gate : EReal) : EReal := up * Ideal.logistic up * gate

/-- Row `R` of `X` against row `j` of `W`. -/
def proj (X W : SRows.Idx → EReal) (R j : Fin 8192) : EReal := ∑ i : Fin 2048, X (ix2 R i) * W (ix2 j i)

/-- Hidden unit `j` of row `R`. -/
def unit (X WU WG : SRows.Idx → EReal) (R j : Fin 8192) : EReal := hidden (proj X WU R j) (proj X WG R j)

/-- One term of the down projection: hidden unit `j` of row `R` times `WD (d, j)`. -/
def term (X WU WG : SRows.Idx → EReal) (WD : SDown.Idx → EReal) (R : Fin 8192) (d : Fin 2048) (j : Fin 8192) : EReal :=
  unit X WU WG R j * WD (ix2 d j)

/-- The block: at `(R, d)` the sum over all hidden units. -/
def ffn (X WU WG : SRows.Idx → EReal) (WD : SDown.Idx → EReal) : SRows.Idx → EReal :=
  fun y => ∑ j : Fin 8192, term X WU WG WD (y 0) (y 1) j

theorem ffn_apply (X WU WG : SRows.Idx → EReal) (WD : SDown.Idx → EReal) (R : Fin 8192) (d : Fin 2048) :
    ffn X WU WG WD (ix2 R d) = ∑ j : Fin 8192, term X WU WG WD R d j := rfl

/-- The word `0x3F800000` is `1`. -/
theorem one_word : Ideal.ofBits .f32 0x3F800000#32 = 1 := IdealRules.sign_bit.ideal_onePat .f32

/-- `silu` as jax expands it on the host — `u · (1 / (1 + e^(-u)))` over the words of `1.0` — is `u · logistic u`. -/
theorem silu_expanded (u : EReal) :
    u * Ideal.div (Ideal.ofBits .f32 0x3F800000#32) (Ideal.ofBits .f32 0x3F800000#32 + Ideal.exp (-u)) = u * Ideal.logistic u := by
  rw [one_word]; rfl

/-- Sixteen tiles of 512 make up the 8192 hidden units. -/
theorem sum_tiles {M : Type*} [AddCommMonoid M] (f : Fin 8192 → M) :
    ∑ e : Fin 16, ∑ k : Fin 512, f ⟨512 * e.val + k.val, by have := e.isLt; have := k.isLt; omega⟩ = ∑ j : Fin 8192, f j := by
  rw [← Fintype.sum_prod_type']
  refine Fintype.sum_equiv (finProdFinEquiv (m := 16) (n := 512)) _ _ fun p => ?_
  congr 1
  apply Fin.ext
  show 512 * p.1.val + p.2.val = p.2.val + 512 * p.1.val
  omega

end Cert.Swiglu

end
-- ==== Proof.Payload.lean ====
/-
  The two blocks the kernel body stores, read at one index, over the extended reals.

  The body keeps a running block of 512 rows by 2048 columns. At the first step over the hidden axis it stores the
  zero block. At every step it stores the running block plus one tile's contribution: with `x` the 512 activation
  rows, `wu`, `wg` the tile's 512 rows of the up and gate weights and `wd` the tile's 512 columns of the down weights,
  the entry `(r, d)` of the contribution is `∑ k, hidden (∑ i, x (r, i) · wu (k, i)) (∑ i, x (r, i) · wg (k, i)) · wd (d, k)`.

  Each of the three products contracts the second axis of both operands into a zero accumulator, so its entry
  `(p, q)` is `∑ i, a (p, i) · b (q, i)`: the contraction index has one coordinate, and the operand indices at
  `(p, q)` and `i` are `(p, i)` and `(q, i)`. A change of format is the identity over the extended reals, and a
  cast between equal shapes is the identity.
-/
import proofs.«161961_j81862076662210_1_alg».proof.Proof.Gen.KernelIdeal.Skeleton
import proofs.«161961_j81862076662210_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The projections: 512 × 2048 against 512 × 2048, contracting the second axes -/

theorem lhs_proj_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem lhs_proj_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
theorem rhs_proj_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem rhs_proj_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- Entry `(p, q)` of a projection: row `p` of the activations against row `q` of the weights. -/
theorem matmul_proj_apply (a : FVec Ideal S512x2048 .bf16) (b : FVec Ideal S512x2048 .bf16) (p : Fin 512) (q : Fin 512) :
    matmul dot_S512x2048_S512x2048_S512x512_1_1_0_0_n_n none a b (constant S512x512 .f32 0x00000000#32) (ix2 p q)
      = ∑ i : Fin 2048, a (ix2 p i) * b (ix2 q i) := by
  simp only [matmul]
  rw [Ideal.matmul_constant_zero_apply, ← Equiv.sum_comp (contrEquiv1 dot_S512x2048_S512x2048_S512x512_1_1_0_0_n_n 2048 rfl rfl).symm]
  refine Finset.sum_congr rfl fun i _ => ?_
  have hk := contrEquiv1_symm_val dot_S512x2048_S512x2048_S512x512_1_1_0_0_n_n 2048 rfl rfl i
  have el : dot_S512x2048_S512x2048_S512x512_1_1_0_0_n_n.lhsIdx (ix2 p q) ((contrEquiv1 dot_S512x2048_S512x2048_S512x512_1_1_0_0_n_n 2048 rfl rfl).symm i) = ix2 p i := funext fun c => Fin.ext (by
    match c with
    | ⟨0, _⟩ => exact lhs_proj_0 _ _
    | ⟨1, _⟩ => exact (lhs_proj_1 _ _).trans hk)
  have er : dot_S512x2048_S512x2048_S512x512_1_1_0_0_n_n.rhsIdx (ix2 p q) ((contrEquiv1 dot_S512x2048_S512x2048_S512x512_1_1_0_0_n_n 2048 rfl rfl).symm i) = ix2 q i := funext fun c => Fin.ext (by
    match c with
    | ⟨0, _⟩ => exact rhs_proj_0 _ _
    | ⟨1, _⟩ => exact (rhs_proj_1 _ _).trans hk)
  rw [el, er]

/-! ## The way down: 512 × 512 against 2048 × 512, contracting the second axes -/

theorem lhs_down_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_down_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem rhs_down_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_down_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- Entry `(p, q)` of the way down: row `p` of the hidden tile against row `q` of the down weights' tile. -/
theorem matmul_down_apply (a : FVec Ideal S512x512 .bf16) (b : FVec Ideal S2048x512 .bf16) (p : Fin 512) (q : Fin 2048) :
    matmul dot_S512x512_S2048x512_S512x2048_1_1_0_0_n_n none a b (constant S512x2048 .f32 0x00000000#32) (ix2 p q)
      = ∑ i : Fin 512, a (ix2 p i) * b (ix2 q i) := by
  simp only [matmul]
  rw [Ideal.matmul_constant_zero_apply, ← Equiv.sum_comp (contrEquiv1 dot_S512x512_S2048x512_S512x2048_1_1_0_0_n_n 512 rfl rfl).symm]
  refine Finset.sum_congr rfl fun i _ => ?_
  have hk := contrEquiv1_symm_val dot_S512x512_S2048x512_S512x2048_1_1_0_0_n_n 512 rfl rfl i
  have el : dot_S512x512_S2048x512_S512x2048_1_1_0_0_n_n.lhsIdx (ix2 p q) ((contrEquiv1 dot_S512x512_S2048x512_S512x2048_1_1_0_0_n_n 512 rfl rfl).symm i) = ix2 p i := funext fun c => Fin.ext (by
    match c with
    | ⟨0, _⟩ => exact lhs_down_0 _ _
    | ⟨1, _⟩ => exact (lhs_down_1 _ _).trans hk)
  have er : dot_S512x512_S2048x512_S512x2048_1_1_0_0_n_n.rhsIdx (ix2 p q) ((contrEquiv1 dot_S512x512_S2048x512_S512x2048_1_1_0_0_n_n 512 rfl rfl).symm i) = ix2 q i := funext fun c => Fin.ext (by
    match c with
    | ⟨0, _⟩ => exact rhs_down_0 _ _
    | ⟨1, _⟩ => exact (rhs_down_1 _ _).trans hk)
  rw [el, er]

/-! ## The stored blocks -/

/-- The logistic function of a block, at an index, is the logistic function of the entry. -/
theorem logistic_apply {s : Shape} {φ : FTy} (v : FVec Ideal s φ) (i : s.Idx) : logistic v i = Ideal.logistic (v i) := rfl

/-- The block stored at the first step is zero everywhere: the word `0x00000000` is the extended real `0`. -/
theorem pay1_apply (y : S512x2048.Idx) : Gen.k0_pay1 (F := Ideal) y = 0 := by
  unfold Gen.k0_pay1
  simp only [shapeCast_self]
  exact Ideal.ofBits_zero_f32

/-- The block stored at every step, at `(r, d)`: the running block there plus the tile's 512 hidden units of row `r`,
    each times the down weight that carries it to column `d`. -/
theorem pay2_apply (x0 x1 x2 : Vec Ideal S512x2048 .bf16) (x3 : Vec Ideal S2048x512 .bf16) (xs : Vec Ideal S512x2048 .f32)
    (r : Fin 512) (d : Fin 2048) :
    Gen.k0_pay2 (F := Ideal) x0 x1 x2 x3 xs (ix2 r d)
      = xs (ix2 r d) + ∑ k : Fin 512, Cert.Swiglu.hidden (∑ i : Fin 2048, x0 (ix2 r i) * x1 (ix2 k i))
          (∑ i : Fin 2048, x0 (ix2 r i) * x2 (ix2 k i)) * x3 (ix2 d k) := by
  unfold Gen.k0_pay2
  simp only [shapeCast_self]
  refine (addf_apply _ _ _).trans ?_
  refine congrArg (xs (ix2 r d) + ·) ?_
  refine (matmul_down_apply _ _ r d).trans ?_
  refine Finset.sum_congr rfl fun k _ => ?_
  refine congrArg (· * x3 (ix2 d k)) ?_
  refine (truncf_apply (φ := .f32) (ψ := .bf16) _ bitsLt_bf16_f32 (ix2 r k)).trans ?_
  refine (mulf_apply _ _ _).trans ?_
  rw [mulf_apply, logistic_apply, matmul_proj_apply x0 x1 r k, matmul_proj_apply x0 x2 r k]
  rfl

end Cert.KernelIdeal.Payload

end
-- ==== Proof.Accum.lean ====
/-
  The running total, point by point, over the extended reals.

  Point `n` of the grid is step `n % 16` over the hidden axis for row block `n / 16`. One step adds to entry `(r, d)` of
  the scratch the sum, over the 512 hidden units `j` of its tile, of `hidden-unit j of row 512 (n / 16) + r` times
  `WD (d, j)` — one tile of the sum that defines the block (`tile`, `step_apply`). The scratch is reset to zero at
  step 0, so after point `n` it holds the tiles `0 … n % 16` of its row block (`scratch_after`, by induction on
  the point); at step 15 the output block is a copy of that total, all sixteen tiles: the block's value itself
  (`out_after`), since sixteen tiles of 512 are the 8192 hidden units.
-/
import proofs.«161961_j81862076662210_1_alg».proof.Proof.Pieces
import proofs.«161961_j81862076662210_1_alg».proof.Proof.Blocks
import proofs.«161961_j81862076662210_1_alg».proof.Proof.Payload
import proofs.«161961_j81862076662210_1_alg».proof.Proof.Spec

set_option maxRecDepth 16384

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.KernelIdeal.Blocks Cert.Swiglu

variable (m : (ℓ : Loc nD τ sig) → Buf (Elt Ideal) ℓ)

/-- Tile `e` of the block's sum for row `512 q + r` and column `d`: the hidden units `512 e … 512 e + 511`. -/
def tile (c : Dev nD) (q e : ℕ) (r : Fin 512) (d : Fin 2048) : EReal :=
  ∑ k : Fin 512, term (acts m c) (upW m c) (gateW m c) (downW m c)
    ⟨512 * (q % 16) + r.val, by have := r.isLt; have := Nat.mod_lt q (show 16 > 0 by norm_num); omega⟩ d
    ⟨512 * (e % 16) + k.val, by have := k.isLt; have := Nat.mod_lt e (show 16 > 0 by norm_num); omega⟩

/-- One step at point `t`, read at `(r, d)`: the total `a` it found plus tile `t % 16` of row block `t / 16`. -/
theorem step_apply (c : Dev nD) (t : Fin cfg0.N) (a : Vec Ideal S512x2048 .f32) (r : Fin 512) (d : Fin 2048) :
    k0_pay2 (F := Ideal) (actsBlk m c t) (upBlk m c t) (gateBlk m c t) (downBlk m c t) a (ix2 r d)
      = a (ix2 r d) + tile m c (t.val / 16) (t.val % 16) r d := by
  have hN : t.val < 256 := lt_of_lt_of_eq t.isLt N_0
  refine (Payload.pay2_apply (actsBlk m c t) (upBlk m c t) (gateBlk m c t) (downBlk m c t) a r d).trans ?_
  refine congrArg (a (ix2 r d) + ·) (Finset.sum_congr rfl fun k _ => ?_)
  have hR : (512 * (t.val / 16 % 16) + r.val) = 512 * (t.val / 16) + r.val := by omega
  have hJ : (512 * (t.val % 16 % 16) + k.val) = 512 * (t.val % 16) + k.val := by omega
  have eu : (∑ i : Fin 2048, actsBlk m c t (ix2 r i) * upBlk m c t (ix2 k i))
      = proj (acts m c) (upW m c) ⟨512 * (t.val / 16 % 16) + r.val, by omega⟩ ⟨512 * (t.val % 16 % 16) + k.val, by omega⟩ :=
    Finset.sum_congr rfl fun i _ => congrArg₂ (· * ·) (acts_block m c t r i _ hR) (up_block m c t k i _ hJ)
  have eg : (∑ i : Fin 2048, actsBlk m c t (ix2 r i) * gateBlk m c t (ix2 k i))
      = proj (acts m c) (gateW m c) ⟨512 * (t.val / 16 % 16) + r.val, by omega⟩ ⟨512 * (t.val % 16 % 16) + k.val, by omega⟩ :=
    Finset.sum_congr rfl fun i _ => congrArg₂ (· * ·) (acts_block m c t r i _ hR) (gate_block m c t k i _ hJ)
  rw [eu, eg, down_block m c t d k ⟨512 * (t.val % 16 % 16) + k.val, by omega⟩ hJ]
  rfl

/-- AFTER POINT `n` the scratch holds, at `(r, d)`, tiles `0 … n % 16` of row block `n / 16`. -/
theorem scratch_after (c : Dev nD) : ∀ (n : ℕ) (h : n < cfg0.N) (r : Fin 512) (d : Fin 2048),
    (outsAt0 m c n h).2 (ix2 r d) = ∑ e ∈ Finset.range (n % 16 + 1), tile m c (n / 16) e r d
  | 0, h, r, d => by
    rw [outsAt0_A m c ⟨0, h⟩ (Nat.zero_mod _) (show ¬ (0 : ℕ) % 16 = 15 by decide)]
    dsimp only
    refine (congrFun (Pieces.scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr (Nat.zero_mod _)) (fun hh => absurd ((hcond0_1 ⟨0, h⟩).mp hh) (show ¬ (0 : ℕ) % 16 = 15 by decide)) (actsBlk m c ⟨0, h⟩) (upBlk m c ⟨0, h⟩) (gateBlk m c ⟨0, h⟩) (downBlk m c ⟨0, h⟩)) (ix2 r d)).trans ?_
    refine (step_apply m c ⟨0, h⟩ (k0_pay1 (F := Ideal)) r d).trans ?_
    rw [Payload.pay1_apply, zero_add]
    show tile m c (0 / 16) (0 % 16) r d = ∑ e ∈ Finset.range (0 % 16 + 1), tile m c (0 / 16) e r d
    rw [show 0 % 16 + 1 = 1 from rfl, Finset.sum_range_one]
  | n + 1, h, r, d => by
    have hN : n + 1 < 256 := lt_of_lt_of_eq h N_0
    by_cases h0 : (n + 1) % 16 = 0
    · have h1 : ¬ (n + 1) % 16 = 15 := by omega
      rw [outsAt0_A m c ⟨n + 1, h⟩ h0 h1]
      dsimp only
      refine (congrFun (Pieces.scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (fun hh => h1 ((hcond0_1 ⟨n + 1, h⟩).mp hh)) (actsBlk m c ⟨n + 1, h⟩) (upBlk m c ⟨n + 1, h⟩) (gateBlk m c ⟨n + 1, h⟩) (downBlk m c ⟨n + 1, h⟩)) (ix2 r d)).trans ?_
      refine (step_apply m c ⟨n + 1, h⟩ (k0_pay1 (F := Ideal)) r d).trans ?_
      rw [Payload.pay1_apply, zero_add]
      show tile m c ((n + 1) / 16) ((n + 1) % 16) r d = _
      rw [h0, Finset.sum_range_one]
    · have eq : (n + 1) / 16 = n / 16 := by omega
      have er : (n + 1) % 16 = n % 16 + 1 := by omega
      by_cases h1 : (n + 1) % 16 = 15
      · rw [outsAt0_C m c ⟨n + 1, h⟩ h0 h1]
        dsimp only
        refine (congrFun (Pieces.scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (actsBlk m c ⟨n + 1, h⟩) (upBlk m c ⟨n + 1, h⟩) (gateBlk m c ⟨n + 1, h⟩) (downBlk m c ⟨n + 1, h⟩) (outsAt0 m c n (Nat.lt_of_succ_lt h)).2) (ix2 r d)).trans ?_
        refine (step_apply m c ⟨n + 1, h⟩ (outsAt0 m c n (Nat.lt_of_succ_lt h)).2 r d).trans ?_
        show (outsAt0 m c n (Nat.lt_of_succ_lt h)).2 (ix2 r d) + tile m c ((n + 1) / 16) ((n + 1) % 16) r d = _
        rw [scratch_after c n (Nat.lt_of_succ_lt h) r d, eq, er, Finset.sum_range_succ _ (n % 16 + 1)]
      · rw [outsAt0_B m c ⟨n + 1, h⟩ h0 h1]
        dsimp only
        refine (congrFun (Pieces.scratch_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (actsBlk m c ⟨n + 1, h⟩) (upBlk m c ⟨n + 1, h⟩) (gateBlk m c ⟨n + 1, h⟩) (downBlk m c ⟨n + 1, h⟩) (outsAt0 m c n (Nat.lt_of_succ_lt h)).2) (ix2 r d)).trans ?_
        refine (step_apply m c ⟨n + 1, h⟩ (outsAt0 m c n (Nat.lt_of_succ_lt h)).2 r d).trans ?_
        show (outsAt0 m c n (Nat.lt_of_succ_lt h)).2 (ix2 r d) + tile m c ((n + 1) / 16) ((n + 1) % 16) r d = _
        rw [scratch_after c n (Nat.lt_of_succ_lt h) r d, eq, er, Finset.sum_range_succ _ (n % 16 + 1)]

/-- Sixteen tiles are the whole sum: the block's value at row `512 q + r`, column `d`. -/
theorem tiles_sum (c : Dev nD) (q : ℕ) (hq : q < 16) (r : Fin 512) (d : Fin 2048) (R : Fin 8192) (hR : R.val = 512 * q + r.val) :
    ∑ e ∈ Finset.range 16, tile m c q e r d = ffn (acts m c) (upW m c) (gateW m c) (downW m c) (ix2 R d) := by
  rw [ffn_apply, ← sum_tiles, Finset.sum_range]
  refine Finset.sum_congr rfl fun e _ => ?_
  unfold tile
  refine Finset.sum_congr rfl fun k _ => ?_
  have e1 : (⟨512 * (q % 16) + r.val, by have := r.isLt; omega⟩ : Fin 8192) = R := Fin.ext (by show 512 * (q % 16) + r.val = R.val; omega)
  have e2 : (⟨512 * (e.val % 16) + k.val, by have := k.isLt; have := e.isLt; omega⟩ : Fin 8192)
      = ⟨512 * e.val + k.val, by have := k.isLt; have := e.isLt; omega⟩ := Fin.ext (by show 512 * (e.val % 16) + k.val = 512 * e.val + k.val; have := e.isLt; omega)
  rw [e1, e2]

/-- AT THE LAST STEP of a row block the output block is the block's value on its 512 rows. -/
theorem out_after (c : Dev nD) (t : Fin cfg0.N) (h15 : t.val % 16 = 15) (r : Fin 512) (d : Fin 2048) (R : Fin 8192)
    (hR : R.val = 512 * (t.val / 16) + r.val) :
    (outsAt0 m c t.val t.isLt).1 (ix2 r d) = ffn (acts m c) (upW m c) (gateW m c) (downW m c) (ix2 R d) := by
  have hN : t.val < 256 := lt_of_lt_of_eq t.isLt N_0
  have h0 : ¬ t.val % 16 = 0 := by omega
  have hp : t.val - 1 < cfg0.N := Nat.lt_of_le_of_lt (Nat.sub_le _ _) t.isLt
  rw [outsAt0_C m c t h0 h15]
  dsimp only
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h15) (actsBlk m c t) (upBlk m c t) (gateBlk m c t) (downBlk m c t) (outsAt0 m c (t.val - 1) hp).2) (ix2 r d)).trans ?_
  refine (step_apply m c t (outsAt0 m c (t.val - 1) hp).2 r d).trans ?_
  rw [scratch_after m c (t.val - 1) hp r d, show (t.val - 1) % 16 + 1 = 15 by omega, show (t.val - 1) / 16 = t.val / 16 by omega, h15,
    ← Finset.sum_range_succ (fun e => tile m c (t.val / 16) e r d) 15]
  exact tiles_sum m c (t.val / 16) (by omega) r d R hR

end Cert.KernelIdeal.Accum

end
-- ==== Proof.Result.lean ====
/-
  The result array. Window 4 writes its block back at the last step of each row block (points `16 q + 15`), and what
  it writes is the block's value on rows `512 q … 512 q + 511`; the sixteen row blocks tile the 8192 × 2048 result, so the
  region leaves the whole-array value there, and the one host operation after the region re-lays it as
  4 × 2048 × 2048.
-/
import proofs.«161961_j81862076662210_1_alg».proof.Proof.Accum
import Idealize.ShloMosaic.Lib.StableHlo.Run

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.Swiglu

variable (m : (ℓ : Loc nD τ sig) → Buf (Elt Ideal) ℓ) (ρ : Dev nD → PrngReg)

/-- The block's value over the arrays the region finds: what the result array ends holding. -/
abbrev blockOut (c : Dev nD) : S8192x2048.Idx → Elt Ideal .f32 := ffn (acts m c) (upW m c) (gateW m c) (downW m c)

/-- WHAT A FLUSHING POINT WRITES BACK is its block of the whole-array value. -/
theorem flushed_eq (c : Dev nD) (t : Fin cfg0.N) (hf : (cfg0.win 4).flush t = true) :
    (dats m 0 c).flushed 4 t = ((cfg0.win 4).blk t).view.read (Elt Ideal) (blockOut m c) := by
  have h15 : t.val % 16 = 15 := (flush0_4 t).mp hf
  have hN : t.val < 256 := lt_of_lt_of_eq t.isLt N_0
  obtain ⟨-, -, -, -, -, -, -, -, e0, e1⟩ := index_facts t
  show (cfg0.win 4).cut (grid0.coords t) ((dats m 0 c).after 4 t) = _
  rw [after0_4]
  funext y
  obtain ⟨r, d, rfl⟩ : ∃ (r : Fin 512) (d : Fin 2048), y = ix2 r d := ⟨y 0, y 1, eq_ix2 y⟩
  show (outsAt0 m c t.val t.isLt).1 (ix2 r d) = blockOut m c (((cfg0.win 4).blk t).view.emb (ix2 r d))
  rw [Accum.out_after m c t h15 r d ⟨512 * (t.val / 16) + r.val, by have := r.isLt; omega⟩ rfl]
  refine congrArg (blockOut m c) (funext fun a => Fin.ext ?_)
  match a with
  | ⟨0, _⟩ => show 512 * (t.val / 16) + r.val = win0_4.index t (0 : Fin 2) * 512 + 1 * r.val; omega
  | ⟨1, _⟩ => show d.val = win0_4.index t (1 : Fin 2) * 2048 + 1 * d.val; omega

/-- An entry of the result is in point `t`'s block iff each coordinate is in the block's range on its axis. -/
theorem mem_block (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v41).slice (win0_4.rect t)).set ↔ _
  rw [View.set_slice_whole, Rect.mem_set_unit]
  exact Iff.rfl

/-- Row `R` is written back by the last step of row block `R / 512`. -/
theorem covered (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 256 := N_0
  have ht : 16 * ((i 0).val / 512) + 15 < cfg0.N := by omega
  refine ⟨⟨16 * ((i 0).val / 512) + 15, ht⟩, (flush0_4 _).mpr (by show (16 * ((i 0).val / 512) + 15) % 16 = 15; omega), ?_⟩
  obtain ⟨-, -, -, -, -, -, -, -, e0, e1⟩ := index_facts ⟨16 * ((i 0).val / 512) + 15, ht⟩
  have e0' : win0_4.index ⟨16 * ((i 0).val / 512) + 15, ht⟩ (0 : Fin 2) = (16 * ((i 0).val / 512) + 15) / 16 := e0
  rw [mem_block]
  intro a
  match a with
  | ⟨0, _⟩ =>
    show win0_4.index ⟨16 * ((i 0).val / 512) + 15, ht⟩ (0 : Fin 2) * 512 ≤ (i 0).val ∧ (i 0).val < win0_4.index ⟨16 * ((i 0).val / 512) + 15, ht⟩ (0 : Fin 2) * 512 + 512
    omega
  | ⟨1, _⟩ =>
    show win0_4.index ⟨16 * ((i 0).val / 512) + 15, ht⟩ (1 : Fin 2) * 2048 ≤ (i 1).val ∧ (i 1).val < win0_4.index ⟨16 * ((i 0).val / 512) + 15, ht⟩ (1 : Fin 2) * 2048 + 2048
    omega

/-- So the region leaves the whole-array value in the result array. -/
theorem final (c : Dev nD) : (dats m 0 c).arrAt 4 cfg0.N = blockOut m c :=
  (dats m 0 c).arrAt_eq_of_cover 4 (blockOut m c) (flushed_eq m c) covered

/-- After the region the host re-lays the 8192 × 2048 result as 4 × 2048 × 2048. -/
theorem tail_eq (c : Dev nD) :
    Pipeline.afterTail₀ cfgs (dats m) 0 (V0 m) [hostOps1] c main_v42
      = shapeCast S4x2048x2048 (blockOut m c) shapeCasts_S8192x2048_S4x2048x2048 := by
  unfold Pipeline.afterTail₀
  show StableHlo.after hostOps1 _ (Proc.devRef .tc main_v42) = _
  after_results
  have e : Pipeline.withArrays (cfgs 0).spec c (V0 m c) (fun w => (dats m 0 c).arrAt w (cfgs 0).N) (Proc.devRef .tc main_v41)
      = blockOut m c :=
    (Pipeline.withArrays_arr spec0 launch0.win.arr_inj c _ _ 4).trans (final m c)
  funext i
  show shapeCast S4x2048x2048 (Pipeline.withArrays (cfgs 0).spec c (V0 m c) (fun w => (dats m 0 c).arrAt w (cfgs 0).N)
    (Proc.devRef .tc main_v41)) shapeCasts_S8192x2048_S4x2048x2048 i = _
  rw [e]

/-- THE RUN, READ: every weakly fair execution ends with the result at the block's value over the operand arrays,
    re-laid, and the four arguments as launched. -/
theorem run : θ_run defs (onTc (τ := τ) (main (F := Ideal))) ⟨m, fun _ => 0, ρ⟩ (fun r => ∀ c : Dev nD,
      r.2.mem ((c.tc : Thread nD τ).loc main_v42) = shapeCast S4x2048x2048 (blockOut m c) shapeCasts_S8192x2048_S4x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v42 (Pipeline.mem_restRefs_of main_v42 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.HostSide.lean ====
/-
  What the kernel's region finds in its four operand arrays, as functions of the program's arguments.

  Before the region the host quantises the three weight matrices — scale `mean |W| + ε`, `W / scale` rounded to
  nearest-even, clipped to [-1, 1], times the scale, re-attached to `W` as `W + (q − W)` — and narrows them, and
  the flattened activations, to a sixteen-bit format. The reference program quantises with the very same
  operations; over the extended reals the narrowing is the identity, so each weight operand IS the reference's
  quantised matrix (the operations are never opened: the two texts are compared as they stand), and the activation
  operand is the argument re-laid as 8192 rows.
-/
import proofs.«161961_j81862076662210_1_alg».proof.Proof.Gen.KernelIdeal.Frame
import proofs.«161961_j81862076662210_1_alg».proof.Proof.Gen.ReferenceIdeal.Read
import Idealize.ShloMosaic.Lib.StableHlo.Run
import Idealize.ShloMosaic.Lib.Pipeline.Value

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The up-projection operand is the reference's quantised up matrix of the same argument. -/
theorem up_operand (c : Dev nD) :
    (V m c main_v12 : S8192x2048.Idx → EReal) = Cert.ReferenceIdeal.Read.val_main_v11 (F := Ideal) (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

set_option maxHeartbeats 4000000 in
/-- The gate operand is the reference's quantised gate matrix. -/
theorem gate_operand (c : Dev nD) :
    (V m c main_v25 : S8192x2048.Idx → EReal) = Cert.ReferenceIdeal.Read.val_main_v23 (F := Ideal) (m ((c : Thread nD τ).loc main_arg2)) := by
  dsimp only [V, V0]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

set_option maxHeartbeats 4000000 in
/-- The down-projection operand is the reference's quantised down matrix. -/
theorem down_operand (c : Dev nD) :
    (V m c main_v38 : S2048x8192.Idx → EReal) = Cert.ReferenceIdeal.Read.val_main_v35 (F := Ideal) (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

set_option maxHeartbeats 4000000 in
/-- The activation operand is the first argument re-laid from 4 × 2048 × 2048 to 8192 × 2048. -/
theorem acts_operand (c : Dev nD) :
    (V m c main_v40 : S8192x2048.Idx → EReal)
      = shapeCast S8192x2048 (m ((c : Thread nD τ).loc main_arg0)) shapeCasts_S4x2048x2048_S8192x2048 := by
  dsimp only [V, V0]
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

end Cert.KernelIdeal.HostSide

end
-- ==== Proof.RefValue.lean ====
/-
  The reference's result, read at an index, is the gated feed-forward block of `Spec`.

  The reference computes the two projections of the activations (rank 3: batch, position, feature) against the
  up and gate weights, applies `silu` spelled out as `u · (1 / (1 + e^(-u)))`, multiplies by the gate projection and
  contracts the hidden axis against the down weights. Read at `(b, s, d)` this is the sum over the 8192 hidden
  units `j` of `hidden (up j) (gate j) · WD (d, j)`, where `up j` and `gate j` are sums over the 2048 features of
  row `2048 b + s` of the activations viewed as 8192 rows. The three weight matrices stay opaque throughout.
-/
import proofs.«161961_j81862076662210_1_alg».proof.Proof.Gen.ReferenceIdeal.Read
import proofs.«161961_j81862076662210_1_alg».proof.Proof.Spec

noncomputable section

open scoped BigOperators

namespace Cert.ReferenceIdeal.RefValue

open Cert.ReferenceIdeal Cert.ReferenceIdeal.Gen Idealize.ShloMosaic Idealize.ShloMosaic.ValueIdx

/-- The activations as 8192 rows of 2048: row `R` is batch `R / 2048`, position `R % 2048`. -/
def rows (x0 : S4x2048x2048.Idx → EReal) : Cert.Swiglu.SRows.Idx → EReal :=
  fun y => x0 (ix3 (⟨(y 0).val / 2048, by have := idx2_lt0 y; omega⟩ : Fin 4)
    (⟨(y 0).val % 2048, Nat.mod_lt _ (by norm_num)⟩ : Fin 2048) (y 1))

/-- Row `2048 b + s` of the rows is position `s` of batch `b`. -/
theorem rows_apply (x0 : S4x2048x2048.Idx → EReal) (b : Fin 4) (s i : Fin 2048)
    (h : 2048 * b.val + s.val < 8192) :
    rows x0 (ix2 (⟨2048 * b.val + s.val, h⟩ : Fin 8192) i) = x0 (ix3 b s i) := by
  unfold rows
  refine congrArg x0 (funext fun a => ?_)
  match a with
  | ⟨0, _⟩ => exact Fin.ext (show (2048 * b.val + s.val) / 2048 = b.val by have := s.isLt; omega)
  | ⟨1, _⟩ => exact Fin.ext (show (2048 * b.val + s.val) % 2048 = s.val by have := s.isLt; omega)
  | ⟨2, _⟩ => rfl

/-- The up projection of the reference at `(b, s, j)`: row `2048 b + s` against row `j` of the up weights. -/
theorem up_apply (x0 : (⟨S4x2048x2048, .f32⟩ : BufTy).Contents (Elt Ideal))
    (x1 : (⟨S8192x2048, .f32⟩ : BufTy).Contents (Elt Ideal)) (b : Fin 4) (s : Fin 2048) (j : Fin 8192)
    (h : 2048 * b.val + s.val < 8192) :
    Read.val_main_v36 (F := Ideal) x0 x1 (ix3 b s j)
      = Cert.Swiglu.proj (rows x0) (Read.val_main_v11 (F := Ideal) x1) ⟨2048 * b.val + s.val, h⟩ j := by
  rw [Read.val_main_v36_apply]
  generalize Read.val_main_v11 (F := Ideal) x1 = W
  unfold Cert.Swiglu.proj
  refine Finset.sum_congr rfl fun i _ => ?_
  have hl : Read.lidx_main_v36 (ix3 b s j) i = ix3 b s i :=
    funext fun a => by match a with | ⟨0, _⟩ => rfl | ⟨1, _⟩ => rfl | ⟨2, _⟩ => rfl
  have hr : Read.ridx_main_v36 (ix3 b s j) i = ix2 j i :=
    funext fun a => by match a with | ⟨0, _⟩ => rfl | ⟨1, _⟩ => rfl
  rw [hl, hr, rows_apply]

/-- The gate projection of the reference at `(b, s, j)`: row `2048 b + s` against row `j` of the gate weights. -/
theorem gate_apply (x0 : (⟨S4x2048x2048, .f32⟩ : BufTy).Contents (Elt Ideal))
    (x2 : (⟨S8192x2048, .f32⟩ : BufTy).Contents (Elt Ideal)) (b : Fin 4) (s : Fin 2048) (j : Fin 8192)
    (h : 2048 * b.val + s.val < 8192) :
    Read.val_main_v37 (F := Ideal) x0 x2 (ix3 b s j)
      = Cert.Swiglu.proj (rows x0) (Read.val_main_v23 (F := Ideal) x2) ⟨2048 * b.val + s.val, h⟩ j := by
  rw [Read.val_main_v37_apply]
  generalize Read.val_main_v23 (F := Ideal) x2 = W
  unfold Cert.Swiglu.proj
  refine Finset.sum_congr rfl fun i _ => ?_
  have hl : Read.lidx_main_v37 (ix3 b s j) i = ix3 b s i :=
    funext fun a => by match a with | ⟨0, _⟩ => rfl | ⟨1, _⟩ => rfl | ⟨2, _⟩ => rfl
  have hr : Read.ridx_main_v37 (ix3 b s j) i = ix2 j i :=
    funext fun a => by match a with | ⟨0, _⟩ => rfl | ⟨1, _⟩ => rfl
  rw [hl, hr, rows_apply]

/-- The reference's result at `(b, s, d)` is the block at row `2048 b + s`, column `d`. -/
theorem result_apply (x0 : (⟨S4x2048x2048, .f32⟩ : BufTy).Contents (Elt Ideal))
    (x1 x2 : (⟨S8192x2048, .f32⟩ : BufTy).Contents (Elt Ideal))
    (x3 : (⟨S2048x8192, .f32⟩ : BufTy).Contents (Elt Ideal)) (b : Fin 4) (s d : Fin 2048) :
    Read.val_main_v40 (F := Ideal) x0 x1 x2 x3 (ix3 b s d)
      = Cert.Swiglu.ffn (rows x0) (Read.val_main_v11 (F := Ideal) x1) (Read.val_main_v23 (F := Ideal) x2)
          (Read.val_main_v35 (F := Ideal) x3)
          (ix2 (⟨2048 * b.val + s.val, by have := b.isLt; have := s.isLt; omega⟩ : Fin 8192) d) := by
  rw [Read.val_main_v40_apply, Cert.Swiglu.ffn_apply]
  refine Finset.sum_congr rfl fun j _ => ?_
  have hl : Read.lidx_main_v40 (ix3 b s d) j = ix3 b s j :=
    funext fun a => by match a with | ⟨0, _⟩ => rfl | ⟨1, _⟩ => rfl | ⟨2, _⟩ => rfl
  have hr : Read.ridx_main_v40 (ix3 b s d) j = ix2 d j :=
    funext fun a => by match a with | ⟨0, _⟩ => rfl | ⟨1, _⟩ => rfl
  rw [hl, hr, Read.val_main_v39_apply, Read.val_main_v38_apply, Read.val_main_call6_v5_apply,
    Read.val_main_call6_v4_apply, Read.val_main_call6_cst_0_apply, Read.val_main_call6_v3_apply,
    Read.val_main_call6_v2_apply, Read.val_main_call6_cst_apply, Read.val_main_call6_v1_apply,
    Read.val_main_call6_v0_apply,
    up_apply x0 x1 b s j (by have := b.isLt; have := s.isLt; omega),
    gate_apply x0 x2 b s j (by have := b.isLt; have := s.isLt; omega)]
  unfold Cert.Swiglu.term Cert.Swiglu.unit Cert.Swiglu.hidden
  generalize Cert.Swiglu.proj (rows x0) (Read.val_main_v11 (F := Ideal) x1) _ j = u
  generalize Cert.Swiglu.proj (rows x0) (Read.val_main_v23 (F := Ideal) x2) _ j = g
  generalize Read.val_main_v35 (F := Ideal) x3 (ix2 d j) = w
  simp only [Ideal.mulf_def, Ideal.addf_def, Ideal.hostDivf_def, Ideal.hostUnary_exp_def, Ideal.hostNegf_def,
    Ideal.negf_def, Ideal.ofBits_def]
  rw [Cert.Swiglu.silu_expanded]

end Cert.ReferenceIdeal.RefValue

end
-- ==== Proof.Bridge.lean ====
/-
  The two programs meet. The kernel's result, re-laid as 4 × 2048 × 2048, at `(b, s, d)` is the block's value at row
  `2048 b + s`, column `d`, over the arrays the region finds: the activations re-laid as rows, and the three quantised
  weight matrices — which are the reference's own quantised matrices of the same arguments. The reference's last
  stage at `(b, s, d)` is the same value of the same arrays. So the two results are one array.
-/
import proofs.«161961_j81862076662210_1_alg».proof.Proof.Result
import proofs.«161961_j81862076662210_1_alg».proof.Proof.HostSide
import proofs.«161961_j81862076662210_1_alg».proof.Proof.RefValue

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Blocks Cert.Swiglu

variable (m : (ℓ : Loc nD τ sig) → Buf (Elt Ideal) ℓ)

/-- The activation operand, row `R`, is batch `R / 2048`, position `R % 2048` of the first argument: a re-laying keeps
    the row-major position. -/
theorem acts_rows (c : Dev nD) :
    (acts m c : SRows.Idx → EReal) = Cert.ReferenceIdeal.RefValue.rows (m ((c : Thread nD τ).loc main_arg0)) := by
  show (V m c main_v40 : S8192x2048.Idx → EReal) = _
  rw [HostSide.acts_operand m c]
  funext y
  have hy : (y 0).val < 8192 := (y 0).isLt
  refine shapeCast_apply _ _ y (ix3 (⟨(y 0).val / 2048, by omega⟩ : Fin 4) (⟨(y 0).val % 2048, Nat.mod_lt _ (by norm_num)⟩ : Fin 2048) (y 1)) ?_
  rw [Shape.rowMajor_val_three, Shape.rowMajor_val_two]
  show ((y 0).val / 2048 * 2048 + (y 0).val % 2048) * 2048 + (y 1).val = (y 0).val * 2048 + (y 1).val
  omega

/-- The kernel's result array is the reference's last stage of the same four arguments. -/
theorem result_eq (c : Dev nD) :
    Cert.ReferenceIdeal.Read.val_main_v40 (F := Ideal) (m ((c : Thread nD τ).loc main_arg0)) (m ((c : Thread nD τ).loc main_arg1))
        (m ((c : Thread nD τ).loc main_arg2)) (m ((c : Thread nD τ).loc main_arg3))
      = shapeCast S4x2048x2048 (Result.blockOut m c) shapeCasts_S8192x2048_S4x2048x2048 := by
  funext i
  obtain ⟨b, s, d, rfl⟩ : ∃ (b : Fin 4) (s d : Fin 2048), i = ix3 b s d := ⟨i 0, i 1, i 2, eq_ix3 i⟩
  have hR : 2048 * b.val + s.val < 8192 := by have := b.isLt; have := s.isLt; omega
  rw [Cert.ReferenceIdeal.RefValue.result_apply]
  refine Eq.symm ((shapeCast_apply _ _ (ix3 b s d) (ix2 (⟨2048 * b.val + s.val, hR⟩ : Fin 8192) d) ?_).trans ?_)
  · rw [Shape.rowMajor_val_three, Shape.rowMajor_val_two]
    show (2048 * b.val + s.val) * 2048 + d.val = (b.val * 2048 + s.val) * 2048 + d.val
    omega
  · show ffn (acts m c) (upW m c) (gateW m c) (downW m c) (ix2 ⟨2048 * b.val + s.val, hR⟩ d) = _
    rw [acts_rows m c, show (upW m c : SRows.Idx → EReal) = _ from HostSide.up_operand m c,
      show (gateW m c : SRows.Idx → EReal) = _ from HostSide.gate_operand m c,
      show (downW m c : SDown.Idx → EReal) = _ from HostSide.down_operand m c]

end Cert.KernelIdeal.Bridge

end
-- ==== Proof.lean ====
/-
  A gated feed-forward block with ternary-quantised weights: `out = (silu (x · Wuᵀ) ∘ (x · Wgᵀ)) · Wdᵀ`, with
  `silu u = u · logistic u`, 8192 rows of 2048 against 8192 hidden units.

  The kernel walks a 16 × 16 grid: for each block of 512 rows it takes the hidden axis in sixteen tiles of 512, keeps
  the running total of the tiles' contributions in a scratch block (reset at the first tile) and copies it to the
  result at the last. The reference computes the three products whole. Over the extended reals a change of float
  format is the identity, the kernel's `logistic` is the reference's `1 / (1 + e^(-u))`, and sixteen partial sums
  over 512 hidden units each are the sum over all 8192 — a re-grouping in a commutative monoid, which needs no
  finiteness, so the precondition is never opened. Both programs quantise the weights by the same host operations,
  which are compared as they stand and never opened.

  The modules: Spec (the block as one function; the tiling of its sum), Payload (one step's arithmetic at an
  entry), Pieces (what a step leaves in the scratch and the result block), Blocks (where the blocks sit), Accum
  (the running total, by induction on the grid point), Result (the result array and the re-laying after the region),
  HostSide (the operand arrays as functions of the arguments), RefValue (the reference at an entry), Bridge (the
  two results are one array).
-/
import proofs.«161961_j81862076662210_1_alg».proof.Defs
import proofs.«161961_j81862076662210_1_alg».proof.Proof.Gen.Kernel
import proofs.«161961_j81862076662210_1_alg».proof.Proof.Gen.Kernel.Skeleton
import proofs.«161961_j81862076662210_1_alg».proof.Proof.Gen.Kernel.Launch
import proofs.«161961_j81862076662210_1_alg».proof.Proof.Gen.Kernel.Points
import proofs.«161961_j81862076662210_1_alg».proof.Proof.Gen.Kernel.Frame
import proofs.«161961_j81862076662210_1_alg».proof.Proof.Gen.KernelIdeal
import proofs.«161961_j81862076662210_1_alg».proof.Proof.Gen.KernelIdeal.Skeleton
import proofs.«161961_j81862076662210_1_alg».proof.Proof.Gen.KernelIdeal.Launch
import proofs.«161961_j81862076662210_1_alg».proof.Proof.Gen.KernelIdeal.Points
import proofs.«161961_j81862076662210_1_alg».proof.Proof.Gen.KernelIdeal.Frame
import proofs.«161961_j81862076662210_1_alg».proof.Proof.Gen.ReferenceIdeal
import proofs.«161961_j81862076662210_1_alg».proof.Proof.Gen.ReferenceIdeal.Run
import proofs.«161961_j81862076662210_1_alg».proof.Proof.Gen.ReferenceIdeal.Read
import proofs.«161961_j81862076662210_1_alg».proof.Proof.Gen.Pre_finite_inputs
import proofs.«161961_j81862076662210_1_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array (the block's value over the operands the region finds,
    re-laid) and the reference's last stage are one array. -/
theorem algebraic : Cert.algebraic_KernelIdeal_ReferenceIdeal := by
  intro m ρ m' ρ' _ hagree
  refine ⟨fun c => shapeCast Cert.KernelIdeal.S4x2048x2048 (Cert.KernelIdeal.Result.blockOut m c) Cert.KernelIdeal.Facts₀.shapeCasts_S8192x2048_S4x2048x2048,
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2]
  exact Cert.KernelIdeal.Bridge.result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
